-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S12x1024 : Shape := ⟨2, ![12, 1024]⟩
abbrev S12 : Shape := ⟨1, ![12]⟩
abbrev S1024x12 : Shape := ⟨2, ![1024, 12]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S12x1024 : S_.BroadcastsInDim S12x1024 (![] : Fin 0 → Fin S12x1024.rank)
  reducesTo_S12x1024_S_d0_1 : S12x1024.ReducesTo [0, 1] S_
  bcast_S_S12 : S_.BroadcastsInDim S12 (![] : Fin 0 → Fin S12.rank)
  reducesTo_S12_S_d0 : S12.ReducesTo [0] S_
  bcast_S_S1024x12 : S_.BroadcastsInDim S1024x12 (![] : Fin 0 → Fin S1024x12.rank)
  reducesTo_S1024x12_S_d0_1 : S1024x12.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x12 .f32) (main_arg5 : FVec F S1024 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S1024x12 .f32 := Host.absf main_arg4
  let main_cst_6 : FVec F S_ .f32 := constant S_ .f32 0x7F800000#32
  let main_v20 : FVec F S1024x12 .f32 := broadcastInDim S1024x12 ![] bcast_S_S1024x12 main_cst_6
  let main_v21 : IVec S1024x12 1 := cmpf .olt main_v19 main_v20
  let main_c_7 : IVec S_ 1 := constantI S_ 1 1#1
  let main_v22 : IVec S_ 1 := (fun x v => Host.reduce IntOp.andi x v reducesTo_S1024x12_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x2048x1024 .f32) (main_arg1 : FVec F S12x1024 .f32) (main_arg2 : FVec F S12 .f32) (main_arg3 : FVec F S12 .f32) (main_arg4 : FVec F S1024x12 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S12x1024 .f32 := Host.absf main_arg1
  let main_cst_0 : FVec F S_ .f32 := constant S_ .f32 0x7F800000#32
  let main_v5 : FVec F S12x1024 .f32 := broadcastInDim S12x1024 ![] bcast_S_S12x1024 main_cst_0
  let main_v6 : IVec S12x1024 1 := cmpf .olt main_v4 main_v5
  let main_c_1 : IVec S_ 1 := constantI S_ 1 1#1
  let main_v7 : IVec S_ 1 := (fun x v => Host.reduce IntOp.andi x v reducesTo_S12x1024_S_d0_1 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_arg5 main_v13 main_v16
-- ==== Kernel.lean ====
abbrev S8x2048x1024 : Shape := ⟨3, ![8, 2048, 1024]⟩
abbrev S12x1024 : Shape := ⟨2, ![12, 1024]⟩
abbrev S12 : Shape := ⟨1, ![12]⟩
abbrev S1024x12 : Shape := ⟨2, ![1024, 12]⟩
abbrev S1024 : Shape := ⟨1, ![1024]⟩
abbrev S16384x1024 : Shape := ⟨2, ![16384, 1024]⟩
abbrev S1x12 : Shape := ⟨2, ![1, 12]⟩
abbrev S1x1024 : Shape := ⟨2, ![1, 1024]⟩
abbrev S2048x1024 : Shape := ⟨2, ![2048, 1024]⟩
abbrev S2048x12 : Shape := ⟨2, ![2048, 12]⟩

abbrev nBuf : Space → Nat
  | .hbm => 14
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S12x1024, .f32⟩
  | .hbm, ⟨2, _⟩ => ⟨S12, .f32⟩
  | .hbm, ⟨3, _⟩ => ⟨S12, .f32⟩
  | .hbm, ⟨4, _⟩ => ⟨S1024x12, .f32⟩
  | .hbm, ⟨5, _⟩ => ⟨S1024, .f32⟩
  | .hbm, ⟨6, _⟩ => ⟨S16384x1024, .f32⟩
  | .hbm, ⟨7, _⟩ => ⟨S1024x12, .f32⟩
  | .hbm, ⟨8, _⟩ => ⟨S12x1024, .f32⟩
  | .hbm, ⟨9, _⟩ => ⟨S1x12, .f32⟩
  | .hbm, ⟨10, _⟩ => ⟨S1x12, .f32⟩
  | .hbm, ⟨11, _⟩ => ⟨S1x1024, .f32⟩
  | .hbm, ⟨12, _⟩ => ⟨S16384x1024, .f32⟩
  | .hbm, ⟨13, _⟩ => ⟨S8x2048x1024, .f32⟩
  | .local _ .vmem, ⟨0, _⟩ => ⟨S2048x1024, .f32⟩
  | .local _ .vmem, ⟨1, _⟩ => ⟨S2048x1024, .f32⟩
  | .local _ .vmem, ⟨2, _⟩ => ⟨S1024x12, .f32⟩
  | .local _ .vmem, ⟨3, _⟩ => ⟨S1x12, .f32⟩
  | .local _ .vmem, ⟨4, _⟩ => ⟨S1x12, .f32⟩
  | .local _ .vmem, ⟨5, _⟩ => ⟨S12x1024, .f32⟩
  | .local _ .vmem, ⟨6, _⟩ => ⟨S1x1024, .f32⟩
  | .local _ .vmem, ⟨7, _⟩ => ⟨S2048x1024, .f32⟩
  | .local _ .vmem, ⟨8, _⟩ => ⟨S2048x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x2048x1024_S16384x1024 : S8x2048x1024.ShapeCasts S16384x1024
  transposes_S12x1024_S1024x12_1_0 : S12x1024.Transposes [1, 0] S1024x12
  transposes_S1024x12_S12x1024_1_0 : S1024x12.Transposes [1, 0] S12x1024
  shapeCasts_S12_S1x12 : S12.ShapeCasts S1x12
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x12_S1024x12_0_0 : ∀ a, (![0, 0] : Fin 2 → Nat) a + S1024x12.size a ≤ S1024x12.size a
  h_S1024x12 : 0 < S1024x12.numel
  shapeCasts_S1024x12_S1024x12 : S1024x12.ShapeCasts S1024x12
  inb_S12x1024_S12x1024_0_0 : ∀ a, (![0, 0] : Fin 2 → Nat) a + S12x1024.size a ≤ S12x1024.size a
  h_S12x1024 : 0 < S12x1024.numel
  shapeCasts_S12x1024_S12x1024 : S12x1024.ShapeCasts S12x1024
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S2048x12 : S1x12.Broadcasts S2048x12
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S16384x1024_S8x2048x1024 : S16384x1024.ShapeCasts S8x2048x1024
  dot_S2048x1024_S1024x12_S2048x12_1_0_0_1_n_n_wf : DotDims.WF S2048x1024 S1024x12 S2048x12 [1] [0] [0] [1] [] []
  dot_S2048x12_S12x1024_S2048x1024_1_0_0_1_n_n_wf : DotDims.WF S2048x12 S12x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x12.size a ≤ S1024x12.size a
  hwx0_1 : ∀ i : grid0.Coords, EltTy.bits .f32 = 32 ∨ (Rect.block (s := S1024x12) S1024x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x12.size a ≤ S1x12.size a
  hwx0_2 : ∀ i : grid0.Coords, EltTy.bits .f32 = 32 ∨ (Rect.block (s := S1x12) S1x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x12.size a ≤ S1x12.size a
  hwx0_3 : ∀ i : grid0.Coords, EltTy.bits .f32 = 32 ∨ (Rect.block (s := S1x12) S1x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x1024.size a ≤ S12x1024.size a
  hwx0_4 : ∀ i : grid0.Coords, EltTy.bits .f32 = 32 ∨ (Rect.block (s := S12x1024) S12x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S16384x1024.size a
  hwx0_6 : ∀ i : grid0.Coords, EltTy.bits .f32 = 32 ∨ (Rect.block (s := S16384x1024) S2048x1024.size (cc0_transform_6 i) (hinb0_6 i)).WholeWords (EltTy.packing .f32)

variable [Facts₀]

def dot_S2048x1024_S1024x12_S2048x12_1_0_0_1_n_n : DotDims S2048x1024 S1024x12 S2048x12 where
  lhsContracting := [1]
  rhsContracting := [0]
  lhsNonContracting := [0]
  rhsNonContracting := [1]
  lhsBatch := []
  rhsBatch := []
  wf := dot_S2048x1024_S1024x12_S2048x12_1_0_0_1_n_n_wf
def dot_S2048x12_S12x1024_S2048x1024_1_0_0_1_n_n : DotDims S2048x12 S12x1024 S2048x1024 where
  lhsContracting := [1]
  rhsContracting := [0]
  lhsNonContracting := [0]
  rhsNonContracting := [1]
  lhsBatch := []
  rhsBatch := []
  wf := dot_S2048x12_S12x1024_S2048x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S12x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S2048x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S12x1024 : Shape := ⟨2, ![12, 1024]⟩
abbrev S12 : Shape := ⟨1, ![12]⟩
abbrev S1024x12 : Shape := ⟨2, ![1024, 12]⟩
abbrev S1024 : Shape := ⟨1, ![1024]⟩
abbrev S8x2048x12 : Shape := ⟨3, ![8, 2048, 12]⟩
abbrev S1x1x12 : Shape := ⟨3, ![1, 1, 12]⟩
abbrev S_ : Shape := ⟨0, ![]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S12x1024, .f32⟩
  | .hbm, ⟨2, _⟩ => ⟨S12, .f32⟩
  | .hbm, ⟨3, _⟩ => ⟨S12, .f32⟩
  | .hbm, ⟨4, _⟩ => ⟨S1024x12, .f32⟩
  | .hbm, ⟨5, _⟩ => ⟨S1024, .f32⟩
  | .hbm, ⟨6, _⟩ => ⟨S8x2048x12, .f32⟩
  | .hbm, ⟨7, _⟩ => ⟨S1x1x12, .f32⟩
  | .hbm, ⟨8, _⟩ => ⟨S8x2048x12, .f32⟩
  | .hbm, ⟨9, _⟩ => ⟨S8x2048x12, .f32⟩
  | .hbm, ⟨10, _⟩ => ⟨S_, .f32⟩
  | .hbm, ⟨11, _⟩ => ⟨S8x2048x12, .f32⟩
  | .hbm, ⟨12, _⟩ => ⟨S8x2048x12, .f32⟩
  | .hbm, ⟨13, _⟩ => ⟨S1x1x12, .f32⟩
  | .hbm, ⟨14, _⟩ => ⟨S8x2048x12, .f32⟩
  | .hbm, ⟨15, _⟩ => ⟨S8x2048x12, .f32⟩
  | .hbm, ⟨16, _⟩ => ⟨S8x2048x12, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S12_S1x1x12_2 : S12.BroadcastsInDim S1x1x12 (![2] : Fin 1 → Fin S1x1x12.rank)
  bcast_S1x1x12_S8x2048x12_0_1_2 : S1x1x12.BroadcastsInDim S8x2048x12 (![0, 1, 2] : Fin 3 → Fin S8x2048x12.rank)
  bcast_S_S8x2048x12 : S_.BroadcastsInDim S8x2048x12 (![] : Fin 0 → Fin S8x2048x12.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x1024_S12x1024_S8x2048x12_2_1_01_0_n_n_wf : DotDims.WF S8x2048x1024 S12x1024 S8x2048x12 [2] [1] [0, 1] [0] [] []
  dot_S8x2048x12_S1024x12_S8x2048x1024_2_1_01_0_n_n_wf : DotDims.WF S8x2048x12 S1024x12 S8x2048x1024 [2] [1] [0, 1] [0] [] []

variable [Facts₀]

def dot_S8x2048x1024_S12x1024_S8x2048x12_2_1_01_0_n_n : DotDims S8x2048x1024 S12x1024 S8x2048x12 where
  lhsContracting := [2]
  rhsContracting := [1]
  lhsNonContracting := [0, 1]
  rhsNonContracting := [0]
  lhsBatch := []
  rhsBatch := []
  wf := dot_S8x2048x1024_S12x1024_S8x2048x12_2_1_01_0_n_n_wf
def dot_S8x2048x12_S1024x12_S8x2048x1024_2_1_01_0_n_n : DotDims S8x2048x12 S1024x12 S8x2048x1024 where
  lhsContracting := [2]
  rhsContracting := [1]
  lhsNonContracting := [0, 1]
  rhsNonContracting := [0]
  lhsBatch := []
  rhsBatch := []
  wf := dot_S8x2048x12_S1024x12_S8x2048x1024_2_1_01_0_n_n_wf

class Facts : Prop extends Facts₀ where

variable [Facts]
-- ==== Proof.Spec.lean ====
/-
  The function both programs compute, on the extended reals.

  For one token (a row `x` of 1024 reals), the 12 hidden features are
      feat f = cos (max (Σ_k x k · A k f + b f) 0 + θ f)
  (a linear layer, a rectifier, a per-feature phase shift and a cosine), and the output row is a second
  linear layer over them:
      out e = Σ_f feat f · B f e + d e.
  Everything is stated over plain functions of literal `Fin` indices, so that the same two definitions
  describe a row of the kernel's block, a row of the whole array and a token of the reference.
-/
import Idealize.ShloMosaic.PureOps.Ideal
import Idealize.ShloMosaic.Lib.ValueIdx

noncomputable section

namespace Cert.Ffn

open Idealize.ShloMosaic

/-- One hidden feature of a token: the first linear layer, the rectifier, the phase shift, the cosine. -/
def feat (x : Fin 1024 → EReal) (A : Fin 1024 → Fin 12 → EReal) (b θ : Fin 12 → EReal) (f : Fin 12) : EReal :=
  Ideal.cos (max ((∑ k : Fin 1024, x k * A k f) + b f) 0 + θ f)

/-- One output entry of a token: the second linear layer over the 12 features, plus its bias. -/
def outRow (x : Fin 1024 → EReal) (A : Fin 1024 → Fin 12 → EReal) (b θ : Fin 12 → EReal)
    (B : Fin 12 → Fin 1024 → EReal) (d : Fin 1024 → EReal) (e : Fin 1024) : EReal :=
  (∑ f : Fin 12, feat x A b θ f * B f e) + d e

/-- `outRow` depends on its six arguments only through their values. -/
theorem outRow_congr {x x' : Fin 1024 → EReal} {A A' : Fin 1024 → Fin 12 → EReal} {b b' θ θ' : Fin 12 → EReal}
    {B B' : Fin 12 → Fin 1024 → EReal} {d d' : Fin 1024 → EReal}
    (hx : ∀ k, x k = x' k) (hA : ∀ k f, A k f = A' k f) (hb : ∀ f, b f = b' f) (hθ : ∀ f, θ f = θ' f)
    (hB : ∀ f e, B f e = B' f e) (hd : ∀ e, d e = d' e) (e : Fin 1024) :
    outRow x A b θ B d e = outRow x' A' b' θ' B' d' e := by
  obtain rfl : x = x' := funext hx
  obtain rfl : A = A' := funext fun k => funext (hA k)
  obtain rfl : b = b' := funext hb
  obtain rfl : θ = θ' := funext hθ
  obtain rfl : B = B' := funext fun f => funext (hB f)
  obtain rfl : d = d' := funext hd
  rfl

end Cert.Ffn

end
-- ==== Proof.RefValue.lean ====
/-
  The reference, read at one entry.

  The reference contracts each token of `x` (8 × 2048 tokens of 1024 reals) with the rows of `W1` (12 × 1024), adds `b1`,
  rectifies, adds `θ`, takes the cosine, contracts the 12 features with the rows of `W2` (1024 × 12) and adds `b2`.
  Read at token (b, s) and output entry e this is `Ffn.outRow` of the token's row, with `A k f = W1 f k` and
  `B f e = W2 e f`.
-/
import proofs.«139991_j65481071396395_1_alg».proof.Proof.Gen.ReferenceIdeal.Read
import proofs.«139991_j65481071396395_1_alg».proof.Proof.Spec

noncomputable section

namespace Cert.ReferenceIdeal.RefValue

open Cert.ReferenceIdeal Cert.ReferenceIdeal.Read Idealize.ShloMosaic Idealize.ShloMosaic.ValueIdx

/-! ## The indices the reference's operations read, by coordinates -/

theorem lidx0 (b : Fin 8) (s : Fin 2048) (f : Fin 12) (k : Fin 1024) : lidx_main_v0 (ix3 b s f) k = ix3 b s k :=
  funext fun a => Fin.ext (by match a with | ⟨0, _⟩ => rfl | ⟨1, _⟩ => rfl | ⟨2, _⟩ => rfl)
theorem ridx0 (b : Fin 8) (s : Fin 2048) (f : Fin 12) (k : Fin 1024) : ridx_main_v0 (ix3 b s f) k = ix2 f k :=
  funext fun a => Fin.ext (by match a with | ⟨0, _⟩ => rfl | ⟨1, _⟩ => rfl)
theorem idx12 (b : Fin 8) (s : Fin 2048) (f : Fin 12) : idx_main_v1 (idx_main_v2 (ix3 b s f)) = ix1 f :=
  funext fun a => Fin.ext (by match a with | ⟨0, _⟩ => rfl)
theorem idx56 (b : Fin 8) (s : Fin 2048) (f : Fin 12) : idx_main_v5 (idx_main_v6 (ix3 b s f)) = ix1 f :=
  funext fun a => Fin.ext (by match a with | ⟨0, _⟩ => rfl)
theorem lidx9 (b : Fin 8) (s : Fin 2048) (e : Fin 1024) (f : Fin 12) : lidx_main_v9 (ix3 b s e) f = ix3 b s f :=
  funext fun a => Fin.ext (by match a with | ⟨0, _⟩ => rfl | ⟨1, _⟩ => rfl | ⟨2, _⟩ => rfl)
theorem ridx9 (b : Fin 8) (s : Fin 2048) (e : Fin 1024) (f : Fin 12) : ridx_main_v9 (ix3 b s e) f = ix2 e f :=
  funext fun a => Fin.ext (by match a with | ⟨0, _⟩ => rfl | ⟨1, _⟩ => rfl)
theorem idx1011 (b : Fin 8) (s : Fin 2048) (e : Fin 1024) : idx_main_v10 (idx_main_v11 (ix3 b s e)) = ix1 e :=
  funext fun a => Fin.ext (by match a with | ⟨0, _⟩ => rfl)

/-! ## The hidden features and the result -/

/-- Feature `f` of token (b, s), as the reference computes it. -/
theorem feat_apply (x : (⟨S8x2048x1024, .f32⟩ : BufTy).Contents (Elt Ideal)) (W1 : (⟨S12x1024, .f32⟩ : BufTy).Contents (Elt Ideal))
    (b1 θ : (⟨S12, .f32⟩ : BufTy).Contents (Elt Ideal)) (b : Fin 8) (s : Fin 2048) (f : Fin 12) :
    val_main_v8 (F := Ideal) x W1 b1 θ (ix3 b s f)
      = Ffn.feat (fun k => x (ix3 b s k)) (fun k f => W1 (ix2 f k)) (fun f => b1 (ix1 f)) (fun f => θ (ix1 f)) f := by
  unfold Ffn.feat
  rw [val_main_v8_apply, val_main_v7_apply, val_main_v4_apply, val_main_v3_apply, val_main_v0_apply, val_main_v2_apply,
    val_main_v1_apply, val_main_call0_v0_apply, val_main_call0_cst_apply, val_main_v6_apply, val_main_v5_apply]
  simp only [lidx0, ridx0, idx12, idx56]
  rw [Ideal.hostUnary_cos_def]
  show Ideal.cos (max (_ + _) (Ideal.ofBits .f32 0x00000000#32) + _) = _
  rw [Ideal.ofBits_zero_f32]

/-- Entry e of token (b, s) of the reference's result. -/
theorem result_apply (x : (⟨S8x2048x1024, .f32⟩ : BufTy).Contents (Elt Ideal)) (W1 : (⟨S12x1024, .f32⟩ : BufTy).Contents (Elt Ideal))
    (b1 θ : (⟨S12, .f32⟩ : BufTy).Contents (Elt Ideal)) (W2 : (⟨S1024x12, .f32⟩ : BufTy).Contents (Elt Ideal))
    (b2 : (⟨S1024, .f32⟩ : BufTy).Contents (Elt Ideal)) (b : Fin 8) (s : Fin 2048) (e : Fin 1024) :
    val_main_v12 (F := Ideal) x W1 b1 θ W2 b2 (ix3 b s e)
      = Ffn.outRow (fun k => x (ix3 b s k)) (fun k f => W1 (ix2 f k)) (fun f => b1 (ix1 f)) (fun f => θ (ix1 f))
          (fun f e' => W2 (ix2 e' f)) (fun e' => b2 (ix1 e')) e := by
  unfold Ffn.outRow
  rw [val_main_v12_apply, val_main_v9_apply, val_main_v11_apply, val_main_v10_apply]
  simp only [lidx9, ridx9, idx1011, feat_apply]
  rfl

end Cert.ReferenceIdeal.RefValue

end
-- ==== Proof.Payload.lean ====
/-
  The kernel body's stored value, read at one entry.

  The body loads a block of 2048 token rows `X`, the transposed first weight matrix `A` (1024 × 12), the two
  12-vectors `b` and `θ` (as 1 × 12 rows), the transposed second weight matrix `B` (12 × 1024) and the output bias
  `d` (a 1 × 1024 row), and stores
      (cos (max (X · A + b) 0 + θ)) · B + d.
  On the extended reals each matrix product into a zero accumulator is the plain sum over the contracted axis, so
  entry (p, e) of the stored block is `Ffn.outRow` of row p of `X`.
-/
import proofs.«139991_j65481071396395_1_alg».proof.Proof.Gen.KernelIdeal.Skeleton
import proofs.«139991_j65481071396395_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The first product: rows of the block against the columns of `A` -/

theorem lhsA_0 (i : S2048x12.Idx) (q : dot_S2048x1024_S1024x12_S2048x12_1_0_0_1_n_n.contr.Idx) :
    (dot_S2048x1024_S1024x12_S2048x12_1_0_0_1_n_n.lhsIdx i q 0).val = (i 0).val := by
  unfold DotDims.lhsIdx
  rw [dif_neg (show ¬(0 : Fin S2048x1024.rank) ∈ dot_S2048x1024_S1024x12_S2048x12_1_0_0_1_n_n.lhsBatch by decide), dif_pos (show (0 : Fin S2048x1024.rank) ∈ dot_S2048x1024_S1024x12_S2048x12_1_0_0_1_n_n.lhsNonContracting by decide)]
  rfl
theorem lhsA_1 (i : S2048x12.Idx) (q : dot_S2048x1024_S1024x12_S2048x12_1_0_0_1_n_n.contr.Idx) :
    (dot_S2048x1024_S1024x12_S2048x12_1_0_0_1_n_n.lhsIdx i q 1).val = (q ⟨0, by decide⟩).val :=
  dot_S2048x1024_S1024x12_S2048x12_1_0_0_1_n_n.lhsIdx_val_of_single rfl i q
theorem rhsA_0 (i : S2048x12.Idx) (q : dot_S2048x1024_S1024x12_S2048x12_1_0_0_1_n_n.contr.Idx) :
    (dot_S2048x1024_S1024x12_S2048x12_1_0_0_1_n_n.rhsIdx i q 0).val = (q ⟨0, by decide⟩).val :=
  dot_S2048x1024_S1024x12_S2048x12_1_0_0_1_n_n.rhsIdx_val_of_single rfl i q
theorem rhsA_1 (i : S2048x12.Idx) (q : dot_S2048x1024_S1024x12_S2048x12_1_0_0_1_n_n.contr.Idx) :
    (dot_S2048x1024_S1024x12_S2048x12_1_0_0_1_n_n.rhsIdx i q 1).val = (i 1).val := by
  unfold DotDims.rhsIdx
  rw [dif_neg (show ¬(1 : Fin S1024x12.rank) ∈ dot_S2048x1024_S1024x12_S2048x12_1_0_0_1_n_n.rhsBatch by decide), dif_pos (show (1 : Fin S1024x12.rank) ∈ dot_S2048x1024_S1024x12_S2048x12_1_0_0_1_n_n.rhsNonContracting by decide)]
  rfl

/-- Entry (p, f) of the first product is the sum over the 1024 input features. -/
theorem matmulA_apply (l : FVec Ideal S2048x1024 .f32) (r : FVec Ideal S1024x12 .f32) (p : Fin 2048) (f : Fin 12) :
    matmul dot_S2048x1024_S1024x12_S2048x12_1_0_0_1_n_n none l r (constant S2048x12 .f32 0x00000000#32) (ix2 p f)
      = ∑ k : Fin 1024, l (ix2 p k) * r (ix2 k f) := by
  simp only [matmul]
  rw [Ideal.matmul_constant_zero_apply, ← Equiv.sum_comp (contrEquiv1 dot_S2048x1024_S1024x12_S2048x12_1_0_0_1_n_n 1024 rfl rfl).symm]
  refine Finset.sum_congr rfl fun k _ => ?_
  have hk := contrEquiv1_symm_val dot_S2048x1024_S1024x12_S2048x12_1_0_0_1_n_n 1024 rfl rfl k
  have el : dot_S2048x1024_S1024x12_S2048x12_1_0_0_1_n_n.lhsIdx (ix2 p f) ((contrEquiv1 dot_S2048x1024_S1024x12_S2048x12_1_0_0_1_n_n 1024 rfl rfl).symm k) = ix2 p k := funext fun a => Fin.ext (by
    match a with
    | ⟨0, _⟩ => exact lhsA_0 _ _
    | ⟨1, _⟩ => exact (lhsA_1 _ _).trans hk)
  have er : dot_S2048x1024_S1024x12_S2048x12_1_0_0_1_n_n.rhsIdx (ix2 p f) ((contrEquiv1 dot_S2048x1024_S1024x12_S2048x12_1_0_0_1_n_n 1024 rfl rfl).symm k) = ix2 k f := funext fun a => Fin.ext (by
    match a with
    | ⟨0, _⟩ => exact (rhsA_0 _ _).trans hk
    | ⟨1, _⟩ => exact rhsA_1 _ _)
  rw [el, er]

/-! ## The second product: the 12 features against the columns of `B` -/

theorem lhsB_0 (i : S2048x1024.Idx) (q : dot_S2048x12_S12x1024_S2048x1024_1_0_0_1_n_n.contr.Idx) :
    (dot_S2048x12_S12x1024_S2048x1024_1_0_0_1_n_n.lhsIdx i q 0).val = (i 0).val := by
  unfold DotDims.lhsIdx
  rw [dif_neg (show ¬(0 : Fin S2048x12.rank) ∈ dot_S2048x12_S12x1024_S2048x1024_1_0_0_1_n_n.lhsBatch by decide), dif_pos (show (0 : Fin S2048x12.rank) ∈ dot_S2048x12_S12x1024_S2048x1024_1_0_0_1_n_n.lhsNonContracting by decide)]
  rfl
theorem lhsB_1 (i : S2048x1024.Idx) (q : dot_S2048x12_S12x1024_S2048x1024_1_0_0_1_n_n.contr.Idx) :
    (dot_S2048x12_S12x1024_S2048x1024_1_0_0_1_n_n.lhsIdx i q 1).val = (q ⟨0, by decide⟩).val :=
  dot_S2048x12_S12x1024_S2048x1024_1_0_0_1_n_n.lhsIdx_val_of_single rfl i q
theorem rhsB_0 (i : S2048x1024.Idx) (q : dot_S2048x12_S12x1024_S2048x1024_1_0_0_1_n_n.contr.Idx) :
    (dot_S2048x12_S12x1024_S2048x1024_1_0_0_1_n_n.rhsIdx i q 0).val = (q ⟨0, by decide⟩).val :=
  dot_S2048x12_S12x1024_S2048x1024_1_0_0_1_n_n.rhsIdx_val_of_single rfl i q
theorem rhsB_1 (i : S2048x1024.Idx) (q : dot_S2048x12_S12x1024_S2048x1024_1_0_0_1_n_n.contr.Idx) :
    (dot_S2048x12_S12x1024_S2048x1024_1_0_0_1_n_n.rhsIdx i q 1).val = (i 1).val := by
  unfold DotDims.rhsIdx
  rw [dif_neg (show ¬(1 : Fin S12x1024.rank) ∈ dot_S2048x12_S12x1024_S2048x1024_1_0_0_1_n_n.rhsBatch by decide), dif_pos (show (1 : Fin S12x1024.rank) ∈ dot_S2048x12_S12x1024_S2048x1024_1_0_0_1_n_n.rhsNonContracting by decide)]
  rfl

/-- Entry (p, e) of the second product is the sum over the 12 hidden features. -/
theorem matmulB_apply (l : FVec Ideal S2048x12 .f32) (r : FVec Ideal S12x1024 .f32) (p : Fin 2048) (e : Fin 1024) :
    matmul dot_S2048x12_S12x1024_S2048x1024_1_0_0_1_n_n none l r (constant S2048x1024 .f32 0x00000000#32) (ix2 p e)
      = ∑ f : Fin 12, l (ix2 p f) * r (ix2 f e) := by
  simp only [matmul]
  rw [Ideal.matmul_constant_zero_apply, ← Equiv.sum_comp (contrEquiv1 dot_S2048x12_S12x1024_S2048x1024_1_0_0_1_n_n 12 rfl rfl).symm]
  refine Finset.sum_congr rfl fun k _ => ?_
  have hk := contrEquiv1_symm_val dot_S2048x12_S12x1024_S2048x1024_1_0_0_1_n_n 12 rfl rfl k
  have el : dot_S2048x12_S12x1024_S2048x1024_1_0_0_1_n_n.lhsIdx (ix2 p e) ((contrEquiv1 dot_S2048x12_S12x1024_S2048x1024_1_0_0_1_n_n 12 rfl rfl).symm k) = ix2 p k := funext fun a => Fin.ext (by
    match a with
    | ⟨0, _⟩ => exact lhsB_0 _ _
    | ⟨1, _⟩ => exact (lhsB_1 _ _).trans hk)
  have er : dot_S2048x12_S12x1024_S2048x1024_1_0_0_1_n_n.rhsIdx (ix2 p e) ((contrEquiv1 dot_S2048x12_S12x1024_S2048x1024_1_0_0_1_n_n 12 rfl rfl).symm k) = ix2 k e := funext fun a => Fin.ext (by
    match a with
    | ⟨0, _⟩ => exact (rhsB_0 _ _).trans hk
    | ⟨1, _⟩ => exact rhsB_1 _ _)
  rw [el, er]

/-! ## The stored value at an entry -/

/-- Entry (p, e) of what the body stores is the output entry `e` of the token in row `p` of the loaded block. -/
theorem pay_apply (v0 : FVec Ideal S2048x1024 .f32) (v2 : FVec Ideal S1024x12 .f32) (v4 : FVec Ideal S12x1024 .f32)
    (v7 v13 : FVec Ideal S1x12 .f32) (v19 : FVec Ideal S1x1024 .f32) (p : Fin 2048) (e : Fin 1024) :
    k0_pay1 (F := Ideal) v0 v2 v4 v7 v13 v19 (ix2 p e)
      = Ffn.outRow (fun k => v0 (ix2 p k)) (fun k f => v2 (ix2 k f)) (fun f => v7 (ix2 (0 : Fin 1) f))
          (fun f => v13 (ix2 (0 : Fin 1) f)) (fun f e' => v4 (ix2 f e')) (fun e' => v19 (ix2 (0 : Fin 1) e')) e := by
  unfold k0_pay1 Ffn.outRow Ffn.feat
  simp only [shapeCast_self]
  rw [addf_apply, matmulB_apply, broadcastTo_1b_ab_apply]
  refine congrArg (· + v19 (ix2 (0 : Fin 1) e)) (Finset.sum_congr rfl fun f _ => ?_)
  refine congrArg (· * v4 (ix2 f e)) ?_
  simp only [cos, addf_apply, maximumf_apply, broadcast_apply, Ideal.cos_def, Ideal.ofBits_def, matmulA_apply,
    broadcastTo_1b_ab_apply, Ideal.ofBits_zero_f32]

end Cert.KernelIdeal.Payload

end
-- ==== Proof.KernelValue.lean ====
/-
  What the kernel's program leaves in its result, as one function of the argument arrays.

  The program reshapes `x` (8 × 2048 × 1024) to 16384 token rows, transposes the two weight matrices, views the three
  vectors as single rows, runs the body at 8 grid points — point t on rows 2048·t … 2048·t + 2047, the weights whole at
  every point — and reshapes the 16384 × 1024 result back to 8 × 2048 × 1024. A block of 2048 rows is exactly one batch
  entry, so row p of point t's block is token (t, p). Each flushed block is therefore the matching block of the
  row-major flattening of
      G (b, s, e) = Ffn.outRow (token (b, s) of x) (W1 transposed) b1 θ (W2 transposed) b2 e,
  the 8 blocks tile the 16384 rows, and the final reshape undoes the flattening: the result array is `G`.
-/
import proofs.«139991_j65481071396395_1_alg».proof.Proof.Gen.KernelIdeal.Frame
import proofs.«139991_j65481071396395_1_alg».proof.Proof.Payload
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The argument arrays and the result function -/

abbrev x (c : Dev nD) : S8x2048x1024.Idx → EReal := m ((c : Thread nD τ).loc main_arg0)
abbrev W1 (c : Dev nD) : S12x1024.Idx → EReal := m ((c : Thread nD τ).loc main_arg1)
abbrev b1 (c : Dev nD) : S12.Idx → EReal := m ((c : Thread nD τ).loc main_arg2)
abbrev θ (c : Dev nD) : S12.Idx → EReal := m ((c : Thread nD τ).loc main_arg3)
abbrev W2 (c : Dev nD) : S1024x12.Idx → EReal := m ((c : Thread nD τ).loc main_arg4)
abbrev b2 (c : Dev nD) : S1024.Idx → EReal := m ((c : Thread nD τ).loc main_arg5)

/-- The result: entry e of token (b, s). -/
def G (c : Dev nD) : S8x2048x1024.Idx → EReal := fun i =>
  Ffn.outRow (fun k => x m c (ix3 ⟨(i 0).val, (i 0).isLt⟩ ⟨(i 1).val, (i 1).isLt⟩ k)) (fun k f => W1 m c (ix2 f k))
    (fun f => b1 m c (ix1 f)) (fun f => θ m c (ix1 f)) (fun f e => W2 m c (ix2 e f)) (fun e => b2 m c (ix1 e))
    ⟨(i 2).val, (i 2).isLt⟩

theorem G_apply (c : Dev nD) (b : Fin 8) (s : Fin 2048) (e : Fin 1024) :
    G m c (ix3 b s e) = Ffn.outRow (fun k => x m c (ix3 b s k)) (fun k f => W1 m c (ix2 f k))
      (fun f => b1 m c (ix1 f)) (fun f => θ m c (ix1 f)) (fun f e => W2 m c (ix2 e f)) (fun e => b2 m c (ix1 e)) e := rfl

/-- The 16384 × 1024 array the region writes: `G` with the two token axes flattened row-major. -/
def arr (c : Dev nD) : S16384x1024.Idx → EReal := shapeCast S16384x1024 (G m c) shapeCasts_S8x2048x1024_S16384x1024

/-! ## The arrays as the region finds them -/

theorem V_v0 (c : Dev nD) : (V m c main_v0 : S16384x1024.Idx → EReal)
    = shapeCast S16384x1024 (x m c) shapeCasts_S8x2048x1024_S16384x1024 := by
  show StableHlo.after hostOps0 (fun b => m (c, b)) (Proc.devRef .tc main_v0) = _
  after_results
  rfl
theorem V_v1 (c : Dev nD) : (V m c main_v1 : S1024x12.Idx → EReal)
    = transpose S1024x12 [1, 0] (W1 m c) transposes_S12x1024_S1024x12_1_0 := by
  show StableHlo.after hostOps0 (fun b => m (c, b)) (Proc.devRef .tc main_v1) = _
  after_results
theorem V_v2 (c : Dev nD) : (V m c main_v2 : S12x1024.Idx → EReal)
    = transpose S12x1024 [1, 0] (W2 m c) transposes_S1024x12_S12x1024_1_0 := by
  show StableHlo.after hostOps0 (fun b => m (c, b)) (Proc.devRef .tc main_v2) = _
  after_results
theorem V_v3 (c : Dev nD) : (V m c main_v3 : S1x12.Idx → EReal) = shapeCast S1x12 (b1 m c) shapeCasts_S12_S1x12 := by
  show StableHlo.after hostOps0 (fun b => m (c, b)) (Proc.devRef .tc main_v3) = _
  after_results
  rfl
theorem V_v4 (c : Dev nD) : (V m c main_v4 : S1x12.Idx → EReal) = shapeCast S1x12 (θ m c) shapeCasts_S12_S1x12 := by
  show StableHlo.after hostOps0 (fun b => m (c, b)) (Proc.devRef .tc main_v4) = _
  after_results
  rfl
theorem V_v5 (c : Dev nD) : (V m c main_v5 : S1x1024.Idx → EReal) = shapeCast S1x1024 (b2 m c) shapeCasts_S1024_S1x1024 := by
  show StableHlo.after hostOps0 (fun b => m (c, b)) (Proc.devRef .tc main_v5) = _
  after_results
  rfl

/-! ## The windows' blocks over the grid -/

theorem hz : (![0, 0] : Fin 2 → Nat) = fun _ => 0 := funext fun a => by fin_cases a <;> rfl

/-- The printed index maps, decided over the 8 grid points: the token rows and the result move one block of rows per
    point, the weights and biases stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt8 (t : Fin cfg0.N) : t.val < 8 := Nat.lt_of_lt_of_eq t.isLt N_0

/-- The batch entry a grid point works on. -/
abbrev batch (t : Fin cfg0.N) : Fin 8 := ⟨t.val, lt8 t⟩

/-- Row p of point t's block of tokens is token (t, p). -/
theorem Xblk_apply (c : Dev nD) (t : Fin cfg0.N) (p : Fin 2048) (k : Fin 1024) :
    (iblk m c 0 t : FVec Ideal S2048x1024 .f32) (ix2 p k) = x m c (ix3 (batch t) p k) := by
  obtain ⟨e0, e1, -⟩ := idx_facts t
  show V m c main_v0 (((cfg0.win 0).blk t).view.emb (ix2 p k)) = _
  rw [V_v0]
  refine shapeCast_apply _ _ _ _ ?_
  rw [Shape.rowMajor_val_three, Shape.rowMajor_val_two]
  show (t.val * 2048 + p.val) * 1024 + k.val
    = (win0_0.index t (0 : Fin 2) * 2048 + 1 * p.val) * 1024 + (win0_0.index t (1 : Fin 2) * 1024 + 1 * k.val)
  rw [e0, e1]; omega

/-- The first weight matrix is staged whole, transposed. -/
theorem Ablk_apply (c : Dev nD) (t : Fin cfg0.N) (k : Fin 1024) (f : Fin 12) :
    (iblk m c 1 t : FVec Ideal S1024x12 .f32) (ix2 k f) = W1 m c (ix2 f k) := by
  obtain ⟨-, -, e0, e1, -⟩ := idx_facts t
  show V m c main_v1 (((cfg0.win 1).blk t).view.emb (ix2 k f)) = _
  have he : ((cfg0.win 1).blk t).view.emb (ix2 k f) = ix2 k f := by
    funext a; apply Fin.ext
    match a with
    | ⟨0, _⟩ => show win0_1.index t (0 : Fin 2) * 1024 + 1 * k.val = k.val; rw [e0]; omega
    | ⟨1, _⟩ => show win0_1.index t (1 : Fin 2) * 12 + 1 * f.val = f.val; rw [e1]; omega
  rw [he, V_v1]
  exact transpose_ix2_apply _ _ k f

theorem bblk_apply (c : Dev nD) (t : Fin cfg0.N) (f : Fin 12) :
    (iblk m c 2 t : FVec Ideal S1x12 .f32) (ix2 (0 : Fin 1) f) = b1 m c (ix1 f) := by
  obtain ⟨-, -, -, -, e0, e1, -⟩ := idx_facts t
  show V m c main_v3 (((cfg0.win 2).blk t).view.emb (ix2 (0 : Fin 1) f)) = _
  have he : ((cfg0.win 2).blk t).view.emb (ix2 (0 : Fin 1) f) = ix2 (0 : Fin 1) f := by
    funext a; apply Fin.ext
    match a with
    | ⟨0, _⟩ => show win0_2.index t (0 : Fin 2) * 1 + 1 * 0 = 0; rw [e0]
    | ⟨1, _⟩ => show win0_2.index t (1 : Fin 2) * 12 + 1 * f.val = f.val; rw [e1]; omega
  rw [he, V_v3]
  exact shapeCast_a_1a_apply _ _ (0 : Fin 1) f

theorem θblk_apply (c : Dev nD) (t : Fin cfg0.N) (f : Fin 12) :
    (iblk m c 3 t : FVec Ideal S1x12 .f32) (ix2 (0 : Fin 1) f) = θ m c (ix1 f) := by
  obtain ⟨-, -, -, -, -, -, e0, e1, -⟩ := idx_facts t
  show V m c main_v4 (((cfg0.win 3).blk t).view.emb (ix2 (0 : Fin 1) f)) = _
  have he : ((cfg0.win 3).blk t).view.emb (ix2 (0 : Fin 1) f) = ix2 (0 : Fin 1) f := by
    funext a; apply Fin.ext
    match a with
    | ⟨0, _⟩ => show win0_3.index t (0 : Fin 2) * 1 + 1 * 0 = 0; rw [e0]
    | ⟨1, _⟩ => show win0_3.index t (1 : Fin 2) * 12 + 1 * f.val = f.val; rw [e1]; omega
  rw [he, V_v4]
  exact shapeCast_a_1a_apply _ _ (0 : Fin 1) f

/-- The second weight matrix is staged whole, transposed. -/
theorem Bblk_apply (c : Dev nD) (t : Fin cfg0.N) (f : Fin 12) (e : Fin 1024) :
    (iblk m c 4 t : FVec Ideal S12x1024 .f32) (ix2 f e) = W2 m c (ix2 e f) := by
  obtain ⟨-, -, -, -, -, -, -, -, e0, e1, -⟩ := idx_facts t
  show V m c main_v2 (((cfg0.win 4).blk t).view.emb (ix2 f e)) = _
  have he : ((cfg0.win 4).blk t).view.emb (ix2 f e) = ix2 f e := by
    funext a; apply Fin.ext
    match a with
    | ⟨0, _⟩ => show win0_4.index t (0 : Fin 2) * 12 + 1 * f.val = f.val; rw [e0]; omega
    | ⟨1, _⟩ => show win0_4.index t (1 : Fin 2) * 1024 + 1 * e.val = e.val; rw [e1]; omega
  rw [he, V_v2]
  exact transpose_ix2_apply _ _ f e

theorem dblk_apply (c : Dev nD) (t : Fin cfg0.N) (e : Fin 1024) :
    (iblk m c 5 t : FVec Ideal S1x1024 .f32) (ix2 (0 : Fin 1) e) = b2 m c (ix1 e) := by
  obtain ⟨-, -, -, -, -, -, -, -, -, -, e0, e1, -⟩ := idx_facts t
  show V m c main_v5 (((cfg0.win 5).blk t).view.emb (ix2 (0 : Fin 1) e)) = _
  have he : ((cfg0.win 5).blk t).view.emb (ix2 (0 : Fin 1) e) = ix2 (0 : Fin 1) e := by
    funext a; apply Fin.ext
    match a with
    | ⟨0, _⟩ => show win0_5.index t (0 : Fin 2) * 1 + 1 * 0 = 0; rw [e0]
    | ⟨1, _⟩ => show win0_5.index t (1 : Fin 2) * 1024 + 1 * e.val = e.val; rw [e1]; omega
  rw [he, V_v5]
  exact shapeCast_a_1a_apply _ _ (0 : Fin 1) e

/-- Entry (p, e) of the result's block at point t sits at token (t, p) of `G`. -/
theorem arr_emb (c : Dev nD) (t : Fin cfg0.N) (p : Fin 2048) (e : Fin 1024) :
    arr m c (((cfg0.win 6).blk t).view.emb (ix2 p e)) = G m c (ix3 (batch t) p e) := by
  obtain ⟨-, -, -, -, -, -, -, -, -, -, -, -, e0, e1⟩ := idx_facts t
  unfold arr
  refine shapeCast_apply _ _ _ _ ?_
  rw [Shape.rowMajor_val_three, Shape.rowMajor_val_two]
  show (t.val * 2048 + p.val) * 1024 + e.val
    = (win0_6.index t (0 : Fin 2) * 2048 + 1 * p.val) * 1024 + (win0_6.index t (1 : Fin 2) * 1024 + 1 * e.val)
  rw [e0, e1]; omega

/-! ## What a point writes back, and the array after the run -/

/-- Point t writes back block t of `arr`. -/
theorem flushed_eq (c : Dev nD) (t : Fin cfg0.N) :
    (dats m 0 c).flushed 6 t = ((cfg0.win 6).blk t).view.read (Elt Ideal) (arr m c) := by
  show (cfg0.win 6).cut (grid0.coords t) ((dats m 0 c).after 6 t) = _
  rw [after0_6]
  unfold out0_6
  rw [View.canon_unit_zero hz]
  simp only [View.ld_unit_zero (S := S2048x1024) hz, View.ld_unit_zero (S := S1024x12) hz,
    View.ld_unit_zero (S := S12x1024) hz, View.ld_unit_zero (S := S1x12) hz, View.ld_unit_zero (S := S1x1024) hz]
  funext j
  obtain ⟨p, e, rfl⟩ : ∃ (p : Fin 2048) (e : Fin 1024), j = ix2 p e := ⟨j 0, j 1, eq_ix2 j⟩
  show k0_pay1 (F := Ideal) (iblk m c 0 t) (iblk m c 1 t) (iblk m c 4 t) (iblk m c 2 t) (iblk m c 3 t) (iblk m c 5 t) (ix2 p e)
    = arr m c (((cfg0.win 6).blk t).view.emb (ix2 p e))
  refine (Payload.pay_apply (iblk m c 0 t) (iblk m c 1 t) (iblk m c 4 t) (iblk m c 2 t) (iblk m c 3 t) (iblk m c 5 t) p e).trans ?_
  rw [arr_emb, G_apply]
  exact Ffn.outRow_congr (Xblk_apply m c t p) (Ablk_apply m c t) (bblk_apply m c t) (θblk_apply m c t)
    (Bblk_apply m c t) (dblk_apply m c t) e

/-- An index of the result array is in point t's block iff each coordinate is in the block's range on its axis. -/
theorem mem_blk (t : Fin cfg0.N) (i : S16384x1024.Idx) :
    i ∈ ((cfg0.win 6).blk t).view.set ↔ ∀ a : Fin 2, win0_6.index t a * S2048x1024.size a ≤ (i a).val ∧ (i a).val < win0_6.index t a * S2048x1024.size a + S2048x1024.size a := by
  show i ∈ ((View.whole main_v6).slice (win0_6.rect t)).set ↔ _
  rw [View.set_slice_whole, Rect.mem_set_unit]
  exact Iff.rfl

/-- Row r lies in the block of point r / 2048: the 8 blocks tile the array. -/
theorem cover (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 8 := N_0
  let t : Fin cfg0.N := ⟨(i 0).val / 2048, by rw [hN]; omega⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 2048 ≤ (i 0).val ∧ (i 0).val < win0_6.index t (0 : Fin 2) * 2048 + 2048
    rw [e0]; show (i 0).val / 2048 * 2048 ≤ (i 0).val ∧ (i 0).val < (i 0).val / 2048 * 2048 + 2048; omega
  | ⟨1, _⟩ =>
    show win0_6.index t (1 : Fin 2) * 1024 ≤ (i 1).val ∧ (i 1).val < win0_6.index t (1 : Fin 2) * 1024 + 1024
    rw [e1]; omega

/-- The result array of the region after the run. -/
theorem final (c : Dev nD) : (dats m 0 c).arrAt 6 cfg0.N = arr m c :=
  (dats m 0 c).arrAt_eq_of_cover 6 (arr m c) (fun t _ => flushed_eq m c t) (fun i => cover i)

/-! ## The host tail and the run -/

/-- The reshape after the region undoes the flattening. -/
theorem tail_v7 (c : Dev nD) : Pipeline.afterTail₀ cfgs (dats m) 0 (V0 m) [hostOps1] c main_v7 = G m c := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = arr m c := (Pipeline.withArrays_arr spec0 launch0.win.arr_inj c _ _ 6).trans (final m c)
  rw [hw]
  show shapeCast S8x2048x1024 (shapeCast S16384x1024 (G m c) shapeCasts_S8x2048x1024_S16384x1024) shapeCasts_S16384x1024_S8x2048x1024 = G m c
  exact shapeCast_shapeCast _ _ _

/-- The run, read: every weakly fair execution of the program ends with the result array at `G` of the argument arrays
    and the arguments as launched. -/
theorem run : θ_run defs (onTc (τ := τ) (main (F := Ideal))) ⟨m, fun _ => 0, ρ⟩ fun r => ∀ c : Dev nD,
      r.2.mem ((c.tc : Thread nD τ).loc main_v7) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v7 (Pipeline.mem_restRefs_of main_v7 (by decide) (by decide))).trans (tail_v7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.lean ====
/-
  A feed-forward block with a cosine activation: the kernel against its jnp reference, on the extended reals.

  Both programs compute, for each of the 8 × 2048 tokens of `x` (a row of 1024 reals),
      out e = Σ_f cos (max (Σ_k x k · W1 f k + b1 f) 0 + θ f) · W2 e f + b2 e      (12 hidden features f).
  The reference does it with two contractions over the 3-dimensional array; the kernel flattens the tokens to 16384
  rows, transposes the two weight matrices on the host and multiplies block by block, 2048 rows at a grid point.
  At the ideal values a matrix product into a zero accumulator and the host's contraction are the same finite sum with
  the same order of factors, the kernel's and the host's cosine are one function, and reshapes and transposes only move
  entries, so the two results agree entry by entry with no algebraic law beyond reading both sides at an index:
  neither side's sum is regrouped, and the finiteness of the inputs is never used.

  Modules: `Spec` (the function of one token), `RefValue` (the reference's result at an entry), `Payload` (the body's
  stored block at an entry), `KernelValue` (the blocks as rows of the arguments, the array after the run, the run).
-/
import proofs.«139991_j65481071396395_1_alg».proof.Defs
import proofs.«139991_j65481071396395_1_alg».proof.Proof.Gen.Kernel
import proofs.«139991_j65481071396395_1_alg».proof.Proof.Gen.Kernel.Skeleton
import proofs.«139991_j65481071396395_1_alg».proof.Proof.Gen.Kernel.Launch
import proofs.«139991_j65481071396395_1_alg».proof.Proof.Gen.Kernel.Points
import proofs.«139991_j65481071396395_1_alg».proof.Proof.Gen.Kernel.Frame
import proofs.«139991_j65481071396395_1_alg».proof.Proof.Gen.KernelIdeal
import proofs.«139991_j65481071396395_1_alg».proof.Proof.Gen.KernelIdeal.Skeleton
import proofs.«139991_j65481071396395_1_alg».proof.Proof.Gen.KernelIdeal.Launch
import proofs.«139991_j65481071396395_1_alg».proof.Proof.Gen.KernelIdeal.Points
import proofs.«139991_j65481071396395_1_alg».proof.Proof.Gen.KernelIdeal.Frame
import proofs.«139991_j65481071396395_1_alg».proof.Proof.Gen.ReferenceIdeal
import proofs.«139991_j65481071396395_1_alg».proof.Proof.Gen.Pre_finite_inputs
import proofs.«139991_j65481071396395_1_alg».proof.Proof.Gen.ReferenceIdeal.Run
import proofs.«139991_j65481071396395_1_alg».proof.Proof.Gen.ReferenceIdeal.Read
import proofs.«139991_j65481071396395_1_alg».proof.Proof.RefValue
import proofs.«139991_j65481071396395_1_alg».proof.Proof.KernelValue
import Idealize.ShloMosaic.Adequacy
import Idealize.ShloMosaic.Init

noncomputable section

namespace Cert.Proof

open Idealize.ShloMosaic Idealize.SL.Sem Idealize.ShloMosaic.ValueIdx

/-- The three programs run, and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments, the kernel's result array and the reference's are the same function
    of them: entry e of token (b, s) is `Ffn.outRow` of that token on both sides. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5, Cert.ReferenceIdeal.Read.val_main_v12_eq]
  funext i
  obtain ⟨b, s, e, rfl⟩ : ∃ (b : Fin 8) (s : Fin 2048) (e : Fin 1024), i = ix3 b s e := ⟨i 0, i 1, i 2, eq_ix3 i⟩
  rw [Cert.ReferenceIdeal.RefValue.result_apply]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
